-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x8192 : Shape := ⟨3, ![32, 128, 8192]⟩
abbrev S_ : Shape := ⟨0, ![]⟩
abbrev S32x128 : Shape := ⟨2, ![32, 128]⟩
abbrev S32x128x1 : Shape := ⟨3, ![32, 128, 1]⟩

class Facts : Prop where
  bcast_S_S32x128x8192 : S_.BroadcastsInDim S32x128x8192 (![] : Fin 0 → Fin S32x128x8192.rank)
  reducesTo_S32x128x8192_S_d0_1_2 : S32x128x8192.ReducesTo [0, 1, 2] S_
  h_S_ : 0 < S_.numel
  reducesTo_S32x128x8192_S32x128_d2 : S32x128x8192.ReducesTo [2] S32x128
  bcast_S32x128_S32x128x1_0_1 : S32x128.BroadcastsInDim S32x128x1 (![0, 1] : Fin 2 → Fin S32x128x1.rank)
  bcast_S32x128x1_S32x128x8192_0_1_2 : S32x128x1.BroadcastsInDim S32x128x8192 (![0, 1, 2] : Fin 3 → Fin S32x128x8192.rank)
  bcast_S_S32x128 : S_.BroadcastsInDim S32x128 (![] : Fin 0 → Fin S32x128.rank)
  reducesTo_S32x128_S_d0_1 : S32x128.ReducesTo [0, 1] S_

variable [Facts]

def fn_part2 {F : FTy → Type} [FloatOps F] (main_v8 : IVec S_ 1) (main_v36 : FVec F S32x128 .f32) : IVec S_ 1 :=
  let main_cst_9 : FVec F S_ .f32 := constant S_ .f32 0x00000000#32
  let main_v37 : FVec F S32x128 .f32 := broadcastInDim S32x128 ![] bcast_S_S32x128 main_cst_9
  let main_v38 : IVec S32x128 1 := cmpf .ogt main_v36 main_v37
  let main_c_10 : IVec S_ 1 := constantI S_ 1 1#1
  let main_v39 : IVec S_ 1 := (fun x v => Host.reduce IntOp.andi x v reducesTo_S32x128_S_d0_1 h_S_) main_v38 main_c_10
  let main_v40 : IVec S_ 1 := andi main_v8 main_v39
  main_v40

def fn_part1 {F : FTy → Type} [FloatOps F] (main_arg0 : FVec F S32x128x8192 .f32) (main_arg1 : FVec F S32x128x8192 .f32) (main_v8 : IVec S_ 1) (main_v16 : FVec F S32x128x8192 .f32) (main_cst_4 : FVec F S_ .f32) : IVec S_ 1 :=
  let main_v17 : FVec F S32x128 .f32 := (fun x v => Host.reduceAdd x v reducesTo_S32x128x8192_S32x128_d2 h_S_) main_v16 main_cst_4
  let main_v18 : FVec F S32x128x8192 .f32 := mulf main_arg0 main_v16
  let main_cst_5 : FVec F S_ .f32 := constant S_ .f32 0x00000000#32
  let main_v19 : FVec F S32x128 .f32 := (fun x v => Host.reduceAdd x v reducesTo_S32x128x8192_S32x128_d2 h_S_) main_v18 main_cst_5
  let main_v20 : FVec F S32x128 .f32 := Host.divf main_v19 main_v17
  let main_v21 : FVec F S32x128x8192 .f32 := mulf main_arg1 main_v16
  let main_cst_6 : FVec F S_ .f32 := constant S_ .f32 0x00000000#32
  let main_v22 : FVec F S32x128 .f32 := (fun x v => Host.reduceAdd x v reducesTo_S32x128x8192_S32x128_d2 h_S_) main_v21 main_cst_6
  let main_v23 : FVec F S32x128 .f32 := Host.divf main_v22 main_v17
  let main_v24 : FVec F S32x128x1 .f32 := broadcastInDim S32x128x1 ![0, 1] bcast_S32x128_S32x128x1_0_1 main_v20
  let main_v25 : FVec F S32x128x8192 .f32 := broadcastInDim S32x128x8192 ![0, 1, 2] bcast_S32x128x1_S32x128x8192_0_1_2 main_v24
  let main_v26 : FVec F S32x128x8192 .f32 := subf main_arg0 main_v25
  let main_v27 : FVec F S32x128x8192 .f32 := mulf main_v26 main_v16
  let main_v28 : FVec F S32x128x1 .f32 := broadcastInDim S32x128x1 ![0, 1] bcast_S32x128_S32x128x1_0_1 main_v23
  let main_v29 : FVec F S32x128x8192 .f32 := broadcastInDim S32x128x8192 ![0, 1, 2] bcast_S32x128x1_S32x128x8192_0_1_2 main_v28
  let main_v30 : FVec F S32x128x8192 .f32 := subf main_arg1 main_v29
  let main_v31 : FVec F S32x128x8192 .f32 := mulf main_v30 main_v16
  let main_v32 : FVec F S32x128x8192 .f32 := mulf main_v27 main_v27
  let main_cst_7 : FVec F S_ .f32 := constant S_ .f32 0x00000000#32
  let main_v33 : FVec F S32x128 .f32 := (fun x v => Host.reduceAdd x v reducesTo_S32x128x8192_S32x128_d2 h_S_) main_v32 main_cst_7
  let main_v34 : FVec F S32x128x8192 .f32 := mulf main_v31 main_v31
  let main_cst_8 : FVec F S_ .f32 := constant S_ .f32 0x00000000#32
  let main_v35 : FVec F S32x128 .f32 := (fun x v => Host.reduceAdd x v reducesTo_S32x128x8192_S32x128_d2 h_S_) main_v34 main_cst_8
  let main_v36 : FVec F S32x128 .f32 := mulf main_v33 main_v35
  fn_part2 (F := F) main_v8 main_v36

def fn {F : FTy → Type} [FloatOps F] (main_arg0 : FVec F S32x128x8192 .f32) (main_arg1 : FVec F S32x128x8192 .f32) : IVec S_ 1 :=
  let main_v0 : FVec F S32x128x8192 .f32 := Host.absf main_arg0
  let main_cst : FVec F S_ .f32 := constant S_ .f32 0x7F800000#32
  let main_v1 : FVec F S32x128x8192 .f32 := broadcastInDim S32x128x8192 ![] bcast_S_S32x128x8192 main_cst
  let main_v2 : IVec S32x128x8192 1 := cmpf .olt main_v0 main_v1
  let main_c : IVec S_ 1 := constantI S_ 1 1#1
  let main_v3 : IVec S_ 1 := (fun x v => Host.reduce IntOp.andi x v reducesTo_S32x128x8192_S_d0_1_2 h_S_) main_v2 main_c
  let main_v4 : FVec F S32x128x8192 .f32 := Host.absf main_arg1
  let main_cst_0 : FVec F S_ .f32 := constant S_ .f32 0x7F800000#32
  let main_v5 : FVec F S32x128x8192 .f32 := broadcastInDim S32x128x8192 ![] bcast_S_S32x128x8192 main_cst_0
  let main_v6 : IVec S32x128x8192 1 := cmpf .olt main_v4 main_v5
  let main_c_1 : IVec S_ 1 := constantI S_ 1 1#1
  let main_v7 : IVec S_ 1 := (fun x v => Host.reduce IntOp.andi x v reducesTo_S32x128x8192_S_d0_1_2 h_S_) main_v6 main_c_1
  let main_v8 : IVec S_ 1 := andi main_v3 main_v7
  let main_v9 : FVec F S32x128x8192 .f32 := Host.absf main_arg0
  let main_cst_2 : FVec F S_ .f32 := constant S_ .f32 0x3A83126F#32
  let main_v10 : FVec F S32x128x8192 .f32 := broadcastInDim S32x128x8192 ![] bcast_S_S32x128x8192 main_cst_2
  let main_v11 : IVec S32x128x8192 1 := cmpf .ogt main_v9 main_v10
  let main_v12 : FVec F S32x128x8192 .f32 := Host.absf main_arg1
  let main_cst_3 : FVec F S_ .f32 := constant S_ .f32 0x3A83126F#32
  let main_v13 : FVec F S32x128x8192 .f32 := broadcastInDim S32x128x8192 ![] bcast_S_S32x128x8192 main_cst_3
  let main_v14 : IVec S32x128x8192 1 := cmpf .ogt main_v12 main_v13
  let main_v15 : IVec S32x128x8192 1 := ori main_v11 main_v14
  let main_v16 : FVec F S32x128x8192 .f32 := uitofp .f32 main_v15
  let main_cst_4 : FVec F S_ .f32 := constant S_ .f32 0x00000000#32
  fn_part1 (F := F) main_arg0 main_arg1 main_v8 main_v16 main_cst_4
-- ==== Kernel.lean ====
abbrev S32x128x8192 : Shape := ⟨3, ![32, 128, 8192]⟩
abbrev S2x128x1 : Shape := ⟨3, ![2, 128, 1]⟩
abbrev S1x64x8192 : Shape := ⟨3, ![1, 64, 8192]⟩
abbrev S1x64x1 : Shape := ⟨3, ![1, 64, 1]⟩
abbrev S64x8192 : Shape := ⟨2, ![64, 8192]⟩
abbrev S64 : Shape := ⟨1, ![64]⟩
abbrev S64x1 : Shape := ⟨2, ![64, 1]⟩
abbrev S2x128 : Shape := ⟨2, ![2, 128]⟩
abbrev S_ : Shape := ⟨0, ![]⟩
abbrev S128 : Shape := ⟨1, ![128]⟩

abbrev nBuf : Space → Nat
  | .hbm => 6
  | .vmem => 6
  | .smem => 0
  | _ => 0

abbrev bufTy : (tb : Table) → Fin (tcTables nBuf tb) → BufTy
  | .hbm, ⟨0, _⟩ => ⟨S32x128x8192, .f32⟩
  | .hbm, ⟨1, _⟩ => ⟨S32x128x8192, .f32⟩
  | .hbm, ⟨2, _⟩ => ⟨S2x128x1, .f32⟩
  | .hbm, ⟨3, _⟩ => ⟨S2x128, .f32⟩
  | .hbm, ⟨4, _⟩ => ⟨S_, .f32⟩
  | .hbm, ⟨5, _⟩ => ⟨S128, .f32⟩
  | .local _ .vmem, ⟨0, _⟩ => ⟨S1x64x8192, .f32⟩
  | .local _ .vmem, ⟨1, _⟩ => ⟨S1x64x8192, .f32⟩
  | .local _ .vmem, ⟨2, _⟩ => ⟨S1x64x8192, .f32⟩
  | .local _ .vmem, ⟨3, _⟩ => ⟨S1x64x8192, .f32⟩
  | .local _ .vmem, ⟨4, _⟩ => ⟨S1x64x1, .f32⟩
  | .local _ .vmem, ⟨5, _⟩ => ⟨S1x64x1, .f32⟩
  | _, _ => ⟨S32x128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![v1.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1x64x1_S1x64x1_0_0_0 : ∀ a, (![0, 0, 0] : Fin 3 → Nat) a + S1x64x1.size a ≤ S1x64x1.size a
  h_S1x64x1 : 0 < S1x64x1.numel
  inb_S1x64x8192_S1x64x8192_0_0_0 : ∀ a, (![0, 0, 0] : Fin 3 → Nat) a + S1x64x8192.size a ≤ S1x64x8192.size a
  h_S1x64x8192 : 0 < S1x64x8192.numel
  shapeCasts_S1x64x8192_S64x8192 : S1x64x8192.ShapeCasts S64x8192
  natLt_1_32 : 1 < 32
  reduces_S64x8192_S64 : S64x8192.Reduces [1] S64
  shapeCasts_S64_S64x1 : S64.ShapeCasts S64x1
  broadcasts_S64x1_S64x8192 : S64x1.Broadcasts S64x8192
  shapeCasts_S1x64x1_S1x64x1 : S1x64x1.ShapeCasts S1x64x1
  shapeCasts_S64x1_S1x64x1 : S64x1.ShapeCasts S1x64x1
  shapeCasts_S2x128x1_S2x128 : S2x128x1.ShapeCasts S2x128
  reducesTo_S2x128_S128_d0 : S2x128.ReducesTo [0] S128
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x8192.size a ≤ S32x128x8192.size a
  hwx0_0 : ∀ i : grid0.Coords, EltTy.bits .f32 = 32 ∨ (Rect.block (s := S32x128x8192) S1x64x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x8192.size a ≤ S32x128x8192.size a
  hwx0_1 : ∀ i : grid0.Coords, EltTy.bits .f32 = 32 ∨ (Rect.block (s := S32x128x8192) S1x64x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1.size a ≤ S2x128x1.size a
  hwx0_2 : ∀ i : grid0.Coords, EltTy.bits .f32 = 32 ∨ (Rect.block (s := S2x128x1) S1x64x1.size (cc0_transform_2 i) (hinb0_2 i)).WholeWords (EltTy.packing .f32)

variable [Facts₀]

abbrev win0_0 : Pipeline.Window sig grid0 :=
  Pipeline.Window.ofSpec (Memref.whole main_arg0) S1x64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x128x8192 : Shape := ⟨3, ![32, 128, 8192]⟩
abbrev S_ : Shape := ⟨0, ![]⟩
abbrev S32x128 : Shape := ⟨2, ![32, 128]⟩
abbrev S32x128x1 : Shape := ⟨3, ![32, 128, 1]⟩
abbrev S128 : Shape := ⟨1, ![128]⟩

abbrev nBuf : Space → Nat
  | .hbm => 44
  | .vmem => 0
  | .smem => 0
  | _ => 0

abbrev bufTy : (tb : Table) → Fin (tcTables nBuf tb) → BufTy
  | .hbm, ⟨0, _⟩ => ⟨S32x128x8192, .f32⟩
  | .hbm, ⟨1, _⟩ => ⟨S32x128x8192, .f32⟩
  | .hbm, ⟨2, _⟩ => ⟨S32x128x8192, .f32⟩
  | .hbm, ⟨3, _⟩ => ⟨S_, .f32⟩
  | .hbm, ⟨4, _⟩ => ⟨S32x128x8192, .f32⟩
  | .hbm, ⟨5, _⟩ => ⟨S32x128x8192, .i1⟩
  | .hbm, ⟨6, _⟩ => ⟨S32x128x8192, .f32⟩
  | .hbm, ⟨7, _⟩ => ⟨S_, .f32⟩
  | .hbm, ⟨8, _⟩ => ⟨S32x128x8192, .f32⟩
  | .hbm, ⟨9, _⟩ => ⟨S32x128x8192, .i1⟩
  | .hbm, ⟨10, _⟩ => ⟨S32x128x8192, .i1⟩
  | .hbm, ⟨11, _⟩ => ⟨S32x128x8192, .f32⟩
  | .hbm, ⟨12, _⟩ => ⟨S_, .f32⟩
  | .hbm, ⟨13, _⟩ => ⟨S32x128, .f32⟩
  | .hbm, ⟨14, _⟩ => ⟨S32x128x8192, .f32⟩
  | .hbm, ⟨15, _⟩ => ⟨S_, .f32⟩
  | .hbm, ⟨16, _⟩ => ⟨S32x128, .f32⟩
  | .hbm, ⟨17, _⟩ => ⟨S32x128, .f32⟩
  | .hbm, ⟨18, _⟩ => ⟨S32x128x8192, .f32⟩
  | .hbm, ⟨19, _⟩ => ⟨S_, .f32⟩
  | .hbm, ⟨20, _⟩ => ⟨S32x128, .f32⟩
  | .hbm, ⟨21, _⟩ => ⟨S32x128, .f32⟩
  | .hbm, ⟨22, _⟩ => ⟨S32x128x1, .f32⟩
  | .hbm, ⟨23, _⟩ => ⟨S32x128x8192, .f32⟩
  | .hbm, ⟨24, _⟩ => ⟨S32x128x8192, .f32⟩
  | .hbm, ⟨25, _⟩ => ⟨S32x128x8192, .f32⟩
  | .hbm, ⟨26, _⟩ => ⟨S32x128x1, .f32⟩
  | .hbm, ⟨27, _⟩ => ⟨S32x128x8192, .f32⟩
  | .hbm, ⟨28, _⟩ => ⟨S32x128x8192, .f32⟩
  | .hbm, ⟨29, _⟩ => ⟨S32x128x8192, .f32⟩
  | .hbm, ⟨30, _⟩ => ⟨S32x128x8192, .f32⟩
  | .hbm, ⟨31, _⟩ => ⟨S_, .f32⟩
  | .hbm, ⟨32, _⟩ => ⟨S32x128, .f32⟩
  | .hbm, ⟨33, _⟩ => ⟨S32x128x8192, .f32⟩
  | .hbm, ⟨34, _⟩ => ⟨S_, .f32⟩
  | .hbm, ⟨35, _⟩ => ⟨S32x128, .f32⟩
  | .hbm, ⟨36, _⟩ => ⟨S32x128x8192, .f32⟩
  | .hbm, ⟨37, _⟩ => ⟨S_, .f32⟩
  | .hbm, ⟨38, _⟩ => ⟨S32x128, .f32⟩
  | .hbm, ⟨39, _⟩ => ⟨S32x128, .f32⟩
  | .hbm, ⟨40, _⟩ => ⟨S32x128, .f32⟩
  | .hbm, ⟨41, _⟩ => ⟨S32x128, .f32⟩
  | .hbm, ⟨42, _⟩ => ⟨S_, .f32⟩
  | .hbm, ⟨43, _⟩ => ⟨S128, .f32⟩
  | _, _ => ⟨S32x128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  bcast_S_S32x128x8192 : S_.BroadcastsInDim S32x128x8192 (![] : Fin 0 → Fin S32x128x8192.rank)
  reducesTo_S32x128x8192_S32x128_d2 : S32x128x8192.ReducesTo [2] S32x128
  h_S_ : 0 < S_.numel
  bcast_S32x128_S32x128x1_0_1 : S32x128.BroadcastsInDim S32x128x1 (![0, 1] : Fin 2 → Fin S32x128x1.rank)
  bcast_S32x128x1_S32x128x8192_0_1_2 : S32x128x1.BroadcastsInDim S32x128x8192 (![0, 1, 2] : Fin 3 → Fin S32x128x8192.rank)
  reducesTo_S32x128_S128_d0 : S32x128.ReducesTo [0] S128

variable [Facts₀]

class Facts : Prop extends Facts₀ where

variable [Facts]
-- ==== Proof.RowStat.lean ====
/-
  One row of the masked correlation, as plain extended-real arithmetic.

  For two rows `P`, `Q` of `n` extended reals: an element is kept when `|P k| > 0.001` or `|Q k| > 0.001`
  (weight 1, else 0); `cnt` counts the kept elements; the two masked means are the masked sums over `cnt`;
  the masked deviations `devP`, `devQ` vanish on dropped elements; `cov`, `varP`, `varQ` are the sums of their
  products; `rad = varP * varQ` is the radicand. The correlation is written two ways, `cov * rsqrt rad` and
  `cov / sqrt rad`. On the extended reals the two agree exactly when `0 < rad`: for a positive real radicand
  both are `cov * (sqrt rad)⁻¹`, for `rad = +inf` both are `cov * 0`; at `rad = 0` (where `cov = 0` too) the first
  is `0 * +inf = 0` and the second is `0 / 0`, which is not `0`.
-/
import Idealize.ShloMosaic.PureOps.Ideal
import Idealize.ShloMosaic.PureOps.Ideal.Laws
import Idealize.ShloMosaic.Lib.ValueIdx

noncomputable section

open scoped BigOperators

namespace Cert.RowStat

open Idealize.ShloMosaic

/-- The threshold `0.001`, as the f32 word both programs carry. -/
abbrev thr : EReal := Ideal.ofBits .f32 0x3A83126F#32

/-- Is the pair kept: one bit, `|p| > thr` or `|q| > thr`. -/
def keep (p q : EReal) : BitVec 1 :=
  IntOp.ori (Ideal.cmp .ogt (max p (-p)) thr) (Ideal.cmp .ogt (max q (-q)) thr)

/-- The weight of a pair of elements: 1 when it is kept, else 0. -/
def wgt (p q : EReal) : EReal := (((keep p q).toNat : ℝ) : EReal)

/-- A one-bit word widened to 32 bits and read as a signed integer is the bit read as a natural number. -/
theorem toInt_setWidth_bit (b : BitVec 1) : (b.setWidth 32).toInt = (b.toNat : ℤ) := by
  revert b; decide

/-- So converting the widened bit as a signed integer gives the weight. -/
theorem sitofp_setWidth_keep (p q : EReal) : ((((keep p q).setWidth 32).toInt : ℝ) : EReal) = wgt p q := by
  unfold wgt
  rw [toInt_setWidth_bit]
  norm_cast

/-- Row `(b, l)` of a `[32, 128, 8192]` array: its 8192 elements along the last axis. -/
def row (X : (⟨3, ![32, 128, 8192]⟩ : Shape).Idx → EReal) (b : Fin 32) (l : Fin 128) : Fin 8192 → EReal :=
  fun k => X (ValueIdx.ix3 b l k)

section Row
variable {n : ℕ} (P Q : Fin n → EReal)

/-- How many elements of the row are kept. -/
def cnt : EReal := ∑ k, wgt (P k) (Q k)
/-- The masked mean of `P`. -/
def meanP : EReal := Ideal.div (∑ k, P k * wgt (P k) (Q k)) (cnt P Q)
/-- The masked mean of `Q`. -/
def meanQ : EReal := Ideal.div (∑ k, Q k * wgt (P k) (Q k)) (cnt P Q)
/-- The masked deviation of `P` at `k`. -/
def devP (k : Fin n) : EReal := (P k - meanP P Q) * wgt (P k) (Q k)
/-- The masked deviation of `Q` at `k`. -/
def devQ (k : Fin n) : EReal := (Q k - meanQ P Q) * wgt (P k) (Q k)
/-- The masked covariance sum. -/
def cov : EReal := ∑ k, devP P Q k * devQ P Q k
/-- The masked sum of squared deviations of `P`. -/
def varP : EReal := ∑ k, devP P Q k * devP P Q k
/-- The masked sum of squared deviations of `Q`. -/
def varQ : EReal := ∑ k, devQ P Q k * devQ P Q k
/-- The radicand: the product of the two sums of squares. -/
def rad : EReal := varP P Q * varQ P Q
/-- The correlation written with a reciprocal square root. -/
def ccK : EReal := cov P Q * Ideal.rsqrt (rad P Q)
/-- The correlation written with a quotient by the square root. -/
def ccR : EReal := Ideal.div (cov P Q) (Ideal.sqrt (rad P Q))

end Row

/-- On the extended reals, `a * rsqrt v = a / sqrt v` whenever `0 < v`, `v = +inf` included. -/
theorem mul_rsqrt_eq_div_sqrt (a v : EReal) (hv : 0 < v) : a * Ideal.rsqrt v = Ideal.div a (Ideal.sqrt v) := by
  induction v using EReal.rec with
  | bot => exact absurd hv (not_lt.mpr bot_le)
  | top =>
    rw [Ideal.rsqrt_top, Ideal.sqrt_top, Ideal.div, if_neg EReal.top_ne_zero, EReal.inv_top]
  | coe r =>
    have hr : 0 < r := EReal.coe_pos.mp hv
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div, if_neg (by exact_mod_cast hs), EReal.coe_inv]

/-- So the two ways of writing a row's correlation agree when its radicand is positive. -/
theorem ccK_eq_ccR {n : ℕ} (P Q : Fin n → EReal) (h : 0 < rad P Q) : ccK P Q = ccR P Q :=
  mul_rsqrt_eq_div_sqrt _ _ h

end Cert.RowStat

end
-- ==== Proof.RefRows.lean ====
/-
  The reference, row by row.

  The reference program is read one operation at a time; each stage, read at a coordinate index, is the matching
  quantity of one row of the masked correlation: the weight of an element pair, the count of kept elements, the two
  masked means, the two masked deviations, the covariance sum, the two sums of squares, the radicand, and the quotient
  of the covariance by the square root of the radicand. The last stage adds that quotient over the 32 batches.
  Every float sum of the program starts from the constant 0 and runs along one axis, so at a coordinate index it is
  the plain sum over that axis' coordinate.
-/
import proofs.«161709_j44349832298987_1_alg».proof.Proof.Gen.ReferenceIdeal.Read
import proofs.«161709_j44349832298987_1_alg».proof.Proof.RowStat
import Idealize.ShloMosaic.Lib.ValueIdx

noncomputable section

open scoped BigOperators

namespace Cert.RefRows

open Idealize.ShloMosaic Idealize.ShloMosaic.ValueIdx Cert.ReferenceIdeal Cert.ReferenceIdeal.Read Cert.RowStat

variable (X Y : (⟨S32x128x8192, .f32⟩ : BufTy).Contents (Elt Ideal))

/-- A rank-3 index with coordinates `b`, `l`, `k` is `ix3 b l k`. -/
theorem idx3_eq (f : S32x128x8192.Idx) (b : Fin 32) (l : Fin 128) (k : Fin 8192)
    (h0 : (f 0).val = b.val) (h1 : (f 1).val = l.val) (h2 : (f 2).val = k.val) : f = ix3 b l k := by
  funext a
  match a with
  | ⟨0, _⟩ => exact Fin.ext h0
  | ⟨1, _⟩ => exact Fin.ext h1
  | ⟨2, _⟩ => exact Fin.ext h2

/-- A rank-2 index with coordinates `b`, `l` is `ix2 b l`. -/
theorem idx2_eq (f : S32x128.Idx) (b : Fin 32) (l : Fin 128)
    (h0 : (f 0).val = b.val) (h1 : (f 1).val = l.val) : f = ix2 b l := by
  funext a
  match a with
  | ⟨0, _⟩ => exact Fin.ext h0
  | ⟨1, _⟩ => exact Fin.ext h1

/-- The weight stage: 1 where `|x| > 0.001` or `|y| > 0.001`, else 0. -/
theorem ref_wgt (j : S32x128x8192.Idx) : val_main_v7 (F := Ideal) X Y j = wgt (X j) (Y j) := by
  rw [val_main_v7_apply, val_main_v6_apply, val_main_v2_apply, val_main_v5_apply, val_main_v0_apply,
    val_main_v3_apply, val_main_v1_apply, val_main_v4_apply, val_main_cst_apply, val_main_cst_0_apply]
  rfl

/-- The count of kept elements of row `(b, l)`. -/
theorem ref_cnt (b : Fin 32) (l : Fin 128) :
    val_main_v8 (F := Ideal) X Y (ix2 b l) = cnt (row X b l) (row Y b l) := by
  rw [val_main_v8_apply, val_main_cst_1_apply, Ideal.ofBits_def, Ideal.ofBits_zero_f32, zero_add]
  unfold cnt
  refine Finset.sum_congr rfl fun k _ => ?_
  rw [idx3_eq (idx_main_v8 (ix2 b l) k) b l k rfl rfl rfl, ref_wgt]
  rfl

/-- The masked mean of the first argument's row. -/
theorem ref_meanP (b : Fin 32) (l : Fin 128) :
    val_main_v11 (F := Ideal) X Y (ix2 b l) = meanP (row X b l) (row Y b l) := by
  rw [val_main_v11_apply, val_main_v10_apply, val_main_cst_2_apply, Ideal.ofBits_def, Ideal.ofBits_zero_f32,
    zero_add, ref_cnt, Ideal.hostDivf_def]
  unfold meanP
  refine congrArg (fun s => Ideal.div s _) (Finset.sum_congr rfl fun k _ => ?_)
  rw [idx3_eq (idx_main_v10 (ix2 b l) k) b l k rfl rfl rfl, val_main_v9_apply, ref_wgt]
  rfl

/-- The masked mean of the second argument's row. -/
theorem ref_meanQ (b : Fin 32) (l : Fin 128) :
    val_main_v14 (F := Ideal) X Y (ix2 b l) = meanQ (row X b l) (row Y b l) := by
  rw [val_main_v14_apply, val_main_v13_apply, val_main_cst_3_apply, Ideal.ofBits_def, Ideal.ofBits_zero_f32,
    zero_add, ref_cnt, Ideal.hostDivf_def]
  unfold meanQ
  refine congrArg (fun s => Ideal.div s _) (Finset.sum_congr rfl fun k _ => ?_)
  rw [idx3_eq (idx_main_v13 (ix2 b l) k) b l k rfl rfl rfl, val_main_v12_apply, ref_wgt]
  rfl

/-- The masked deviation of the first argument at `(b, l, k)`: the mean is broadcast back along the row. -/
theorem ref_devP (b : Fin 32) (l : Fin 128) (k : Fin 8192) :
    val_main_v18 (F := Ideal) X Y (ix3 b l k) = devP (row X b l) (row Y b l) k := by
  rw [val_main_v18_apply, val_main_v17_apply, val_main_v16_apply, val_main_v15_apply,
    idx2_eq (idx_main_v15 (idx_main_v16 (ix3 b l k))) b l rfl rfl, ref_meanP, ref_wgt]
  rfl

/-- The masked deviation of the second argument at `(b, l, k)`. -/
theorem ref_devQ (b : Fin 32) (l : Fin 128) (k : Fin 8192) :
    val_main_v22 (F := Ideal) X Y (ix3 b l k) = devQ (row X b l) (row Y b l) k := by
  rw [val_main_v22_apply, val_main_v21_apply, val_main_v20_apply, val_main_v19_apply,
    idx2_eq (idx_main_v19 (idx_main_v20 (ix3 b l k))) b l rfl rfl, ref_meanQ, ref_wgt]
  rfl

/-- The covariance sum of row `(b, l)`. -/
theorem ref_cov (b : Fin 32) (l : Fin 128) :
    val_main_v24 (F := Ideal) X Y (ix2 b l) = cov (row X b l) (row Y b l) := by
  rw [val_main_v24_apply, val_main_cst_4_apply, Ideal.ofBits_def, Ideal.ofBits_zero_f32, zero_add]
  unfold cov
  refine Finset.sum_congr rfl fun k _ => ?_
  rw [idx3_eq (idx_main_v24 (ix2 b l) k) b l k rfl rfl rfl, val_main_v23_apply, ref_devP, ref_devQ]
  rfl

/-- The sum of squared deviations of the first argument's row. -/
theorem ref_varP (b : Fin 32) (l : Fin 128) :
    val_main_v26 (F := Ideal) X Y (ix2 b l) = varP (row X b l) (row Y b l) := by
  rw [val_main_v26_apply, val_main_cst_5_apply, Ideal.ofBits_def, Ideal.ofBits_zero_f32, zero_add]
  unfold varP
  refine Finset.sum_congr rfl fun k _ => ?_
  rw [idx3_eq (idx_main_v26 (ix2 b l) k) b l k rfl rfl rfl, val_main_v25_apply, ref_devP]
  rfl

/-- The sum of squared deviations of the second argument's row. -/
theorem ref_varQ (b : Fin 32) (l : Fin 128) :
    val_main_v28 (F := Ideal) X Y (ix2 b l) = varQ (row X b l) (row Y b l) := by
  rw [val_main_v28_apply, val_main_cst_6_apply, Ideal.ofBits_def, Ideal.ofBits_zero_f32, zero_add]
  unfold varQ
  refine Finset.sum_congr rfl fun k _ => ?_
  rw [idx3_eq (idx_main_v28 (ix2 b l) k) b l k rfl rfl rfl, val_main_v27_apply, ref_devQ]
  rfl

/-- The radicand of row `(b, l)`: the product of the two sums of squares. -/
theorem ref_rad (b : Fin 32) (l : Fin 128) :
    val_main_v29 (F := Ideal) X Y (ix2 b l) = rad (row X b l) (row Y b l) := by
  rw [val_main_v29_apply, ref_varP, ref_varQ]
  rfl

/-- The correlation of row `(b, l)`: the covariance over the square root of the radicand. -/
theorem ref_cc (b : Fin 32) (l : Fin 128) :
    val_main_v31 (F := Ideal) X Y (ix2 b l) = ccR (row X b l) (row Y b l) := by
  rw [val_main_v31_apply, val_main_v30_apply, ref_cov, ref_rad]
  rfl

/-- The result at lane `l`: the sum over the 32 batches of the row correlations. -/
theorem ref_out (l : Fin 128) :
    val_main_v32 (F := Ideal) X Y (ix1 l) = ∑ b : Fin 32, ccR (row X b l) (row Y b l) := by
  rw [val_main_v32_apply, val_main_cst_7_apply, Ideal.ofBits_def, Ideal.ofBits_zero_f32, zero_add]
  refine Finset.sum_congr rfl fun b _ => ?_
  rw [idx2_eq (idx_main_v32 (ix1 l) b) b l rfl rfl, ref_cc]

end Cert.RefRows

end
-- ==== Proof.PreRows.lean ====
import proofs.«161709_j44349832298987_1_alg».proof.Proof.Gen.ReferenceIdeal.Read
import proofs.«161709_j44349832298987_1_alg».proof.Proof.Gen.Pre_finite_inputs
import Idealize.ShloMosaic.Lib.ReduceAll
import Idealize.ShloMosaic.Lib.ValueIdx
import Idealize.ShloMosaic.Lib.Affine
import Idealize.ShloMosaic.Lib.StableHlo.Predicate

noncomputable section

namespace Cert.PreRows

open Idealize.ShloMosaic

/-- The scalar shape has a single index. -/
instance subsingleton_scalarIdx : Subsingleton (Cert.Pre_finite_inputs.S_).Idx :=
  ⟨fun _ _ => funext fun d => d.elim0⟩

/-- The last stage of the precondition, read back: if the conjunction of an earlier bit with
    "every entry of R exceeds zero" is true, then every entry of R is positive. -/
theorem pos_of_part2 (v8 : IVec Cert.Pre_finite_inputs.S_ 1)
    (R : FVec Ideal Cert.Pre_finite_inputs.S32x128 .f32)
    (h : Cert.Pre_finite_inputs.fn_part2 (F := Ideal) v8 R ValueIdx.ix0 = 1#1)
    (i : (Cert.Pre_finite_inputs.S32x128).Idx) : 0 < R i := by
  have h1 := (IntOp.andi_eq_one.1 h).2
  have h2 := Host.reduce_andi_all _ _ _ _ _ h1 i
  have h3 : Ideal.cmp .ogt (R i) (Ideal.ofBits .f32 0x00000000#32) = 1#1 := by
    refine Eq.trans ?_ h2
    refine congrArg (Ideal.cmp .ogt (R i)) ?_
    exact (StableHlo.Predicate.bcast_scalar Cert.Pre_finite_inputs.Facts.bcast_S_S32x128 Cert.Pre_finite_inputs.Facts.h_S_
      (constant (F := Ideal) Cert.Pre_finite_inputs.S_ .f32 0x00000000#32) i).symm
  rw [Ideal.ofBits_zero_f32] at h3
  simpa [Ideal.cmp, StableHlo.Predicate.ofBool_eq_one_iff] using h3

/-- The precondition holds only if the reference's radicand is positive at every row. -/
theorem rad_pos_of_pre (X Y : (⟨Cert.ReferenceIdeal.S32x128x8192, .f32⟩ : BufTy).Contents (Elt Ideal))
    (h : Cert.Pre_finite_inputs.fn (F := Ideal) X Y = fun _ => 1#1) (b : Fin 32) (l : Fin 128) :
    0 < Cert.ReferenceIdeal.Read.val_main_v29 (F := Ideal) X Y (ValueIdx.ix2 b l) := by
  have h0 : Cert.Pre_finite_inputs.fn_part2 (F := Ideal) _
      (Cert.ReferenceIdeal.Read.val_main_v29 (F := Ideal) X Y) ValueIdx.ix0 = 1#1 :=
    congrFun h ValueIdx.ix0
  exact pos_of_part2 _ _ h0 (ValueIdx.ix2 b l)

end Cert.PreRows

end
-- ==== Proof.LibKeepdims.lean ====
/-
  Two layout facts for a reduction kept as a column: a length-`a` vector cast to an `a × 1` column reads, at
  row `p`, the vector at `p`; and an `a × 1` column broadcast to `a × b` reads, at `(p, c)`, the column at row `p`.
  Together they say that a row statistic (a row's sum, maximum, …) broadcast back over its row is that statistic
  at every column. Stated over literal rank-1 and rank-2 shapes with indices written by coordinates.
-/
import Idealize.ShloMosaic.Lib.ValueIdx
import Idealize.ShloMosaic.Lib.Pipeline.Value

namespace Cert.LibKeepdims

open Idealize.ShloMosaic Idealize.ShloMosaic.ValueIdx

variable {α : Type}

/-- An `[a]` array cast to `[a, 1]` reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibKeepdims
-- ==== Proof.KernelRows.lean ====
/-
  The kernel body's arithmetic, row by row.

  The kernel's body computes, from two loaded blocks of shape [1, 64, 8192], a weight (1 where either element is
  above the threshold in absolute value, else 0), the count of kept elements of each row, the two masked means,
  the two masked deviations, and the three sums of their products; it then adds, to the loaded output block,
  the covariance sum times the reciprocal square root of the product of the two sums of squares. Each of these
  intermediate arrays, read at explicit coordinates (row j, lane k), is the corresponding plain extended-real
  statistic of row j of the two blocks. The stored block at row j is therefore the loaded output element plus
  the row's correlation written with a reciprocal square root; the zero block is zero everywhere.
-/
import proofs.«161709_j44349832298987_1_alg».proof.Proof.Gen.KernelIdeal.Skeleton
import proofs.«161709_j44349832298987_1_alg».proof.Proof.RowStat
import proofs.«161709_j44349832298987_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelRows

open Idealize.ShloMosaic Idealize.ShloMosaic.ValueIdx Cert.KernelIdeal Cert.KernelIdeal.Gen Cert.RowStat

/-- Row j of a [1, 64, 8192] block. -/
def brow (x : Vec Ideal S1x64x8192 .f32) (j : Fin 64) : Fin 8192 → EReal := fun k => x (ix3 (0 : Fin 1) j k)

/-- The sum over the lanes of a [64, 8192] array, read at row j, is the sum over k of the array at (j, k). -/
theorem laneSum_apply (src : FVec Ideal S64x8192 .f32) (h : S64x8192.Reduces [1] S64)
    (hφ : FKind.Formats .f32) (hacc : (0x00000000#32 : BitVec 32) = FKind.add.neutral .f32 hφ) (j : Fin 64) :
    multiReduction .add [1] S64 src 0x00000000#32 h hφ hacc (ix1 j) = ∑ k : Fin 8192, src (ix2 j k) := by
  refine (Ideal.multiReduction_add_single src 0x00000000#32 h hφ hacc (ix1 j)).trans ?_
  refine Finset.sum_congr rfl fun k _ => congrArg src ?_
  funext a
  match a with
  | ⟨0, _⟩ => exact Fin.ext rfl
  | ⟨1, _⟩ => exact Fin.ext rfl

/-- The first block cast to [64, 8192] reads, at (j, k), the block at (0, j, k). -/
theorem pay3_apply (x : Vec Ideal S1x64x8192 .f32) (j : Fin 64) (k : Fin 8192) :
    k0_pay3 (F := Ideal) x (ix2 j k) = x (ix3 (0 : Fin 1) j k) := by
  unfold k0_pay3
  exact shapeCast_1ab_ab_apply x _ j k

/-- The second block cast to [64, 8192] reads, at (j, k), the block at (0, j, k). -/
theorem pay4_apply (x : Vec Ideal S1x64x8192 .f32) (j : Fin 64) (k : Fin 8192) :
    k0_pay4 (F := Ideal) x (ix2 j k) = x (ix3 (0 : Fin 1) j k) := by
  unfold k0_pay4
  exact shapeCast_1ab_ab_apply x _ j k

/-- The weight array at (j, k) is the weight of the pair of elements there. -/
theorem pay5_apply (x0 x1 : Vec Ideal S1x64x8192 .f32) (j : Fin 64) (k : Fin 8192) :
    k0_pay5 (F := Ideal) x0 x1 (ix2 j k) = wgt (brow x0 j k) (brow x1 j k) := by
  unfold k0_pay5
  show ((((IntOp.ori
      (Ideal.cmp .ogt (max (k0_pay3 (F := Ideal) x0 (ix2 j k)) (-(k0_pay3 (F := Ideal) x0 (ix2 j k)))) thr)
      (Ideal.cmp .ogt (max (k0_pay4 (F := Ideal) x1 (ix2 j k)) (-(k0_pay4 (F := Ideal) x1 (ix2 j k)))) thr)).setWidth 32).toInt : ℝ) : EReal) = _
  rw [pay3_apply, pay4_apply]
  exact sitofp_setWidth_keep _ _

/-- The count column at row j is the count of kept elements of row j. -/
theorem pay6_apply (x0 x1 : Vec Ideal S1x64x8192 .f32) (j : Fin 64) :
    k0_pay6 (F := Ideal) x0 x1 (ix2 j (0 : Fin 1)) = cnt (brow x0 j) (brow x1 j) := by
  unfold k0_pay6
  refine (Cert.LibKeepdims.shapeCast_a_a1_apply _ _ j (0 : Fin 1)).trans ?_
  refine (laneSum_apply _ _ _ _ j).trans ?_
  unfold cnt
  exact Finset.sum_congr rfl fun k _ => pay5_apply x0 x1 j k

/-- The masked deviation of the first block at (j, k). -/
theorem pay7_apply (x0 x1 : Vec Ideal S1x64x8192 .f32) (j : Fin 64) (k : Fin 8192) :
    k0_pay7 (F := Ideal) x0 x1 (ix2 j k) = devP (brow x0 j) (brow x1 j) k := by
  unfold k0_pay7
  refine (mulf_apply _ _ (ix2 j k)).trans ?_
  unfold devP
  refine congrArg₂ (· * ·) ?_ (pay5_apply x0 x1 j k)
  refine (subf_apply _ _ (ix2 j k)).trans ?_
  refine congrArg₂ (· - ·) (pay3_apply x0 j k) ?_
  refine (Cert.LibKeepdims.broadcastTo_a1_ab_apply _ _ j k).trans ?_
  refine (divf_apply _ _ (ix2 j (0 : Fin 1))).trans ?_
  unfold meanP
  refine congrArg₂ Ideal.div ?_ (pay6_apply x0 x1 j)
  refine (Cert.LibKeepdims.shapeCast_a_a1_apply _ _ j (0 : Fin 1)).trans ?_
  refine (laneSum_apply _ _ _ _ j).trans ?_
  refine Finset.sum_congr rfl fun k' _ => ?_
  refine (mulf_apply _ _ (ix2 j k')).trans ?_
  exact congrArg₂ (· * ·) (pay3_apply x0 j k') (pay5_apply x0 x1 j k')

/-- The masked deviation of the second block at (j, k). -/
theorem pay8_apply (x0 x1 : Vec Ideal S1x64x8192 .f32) (j : Fin 64) (k : Fin 8192) :
    k0_pay8 (F := Ideal) x0 x1 (ix2 j k) = devQ (brow x0 j) (brow x1 j) k := by
  unfold k0_pay8
  refine (mulf_apply _ _ (ix2 j k)).trans ?_
  unfold devQ
  refine congrArg₂ (· * ·) ?_ (pay5_apply x0 x1 j k)
  refine (subf_apply _ _ (ix2 j k)).trans ?_
  refine congrArg₂ (· - ·) (pay4_apply x1 j k) ?_
  refine (Cert.LibKeepdims.broadcastTo_a1_ab_apply _ _ j k).trans ?_
  refine (divf_apply _ _ (ix2 j (0 : Fin 1))).trans ?_
  unfold meanQ
  refine congrArg₂ Ideal.div ?_ (pay6_apply x0 x1 j)
  refine (Cert.LibKeepdims.shapeCast_a_a1_apply _ _ j (0 : Fin 1)).trans ?_
  refine (laneSum_apply _ _ _ _ j).trans ?_
  refine Finset.sum_congr rfl fun k' _ => ?_
  refine (mulf_apply _ _ (ix2 j k')).trans ?_
  exact congrArg₂ (· * ·) (pay4_apply x1 j k') (pay5_apply x0 x1 j k')

/-- The covariance column at row j. -/
theorem pay9_apply (x0 x1 : Vec Ideal S1x64x8192 .f32) (j : Fin 64) :
    k0_pay9 (F := Ideal) x0 x1 (ix2 j (0 : Fin 1)) = cov (brow x0 j) (brow x1 j) := by
  unfold k0_pay9
  refine (Cert.LibKeepdims.shapeCast_a_a1_apply _ _ j (0 : Fin 1)).trans ?_
  refine (laneSum_apply _ _ _ _ j).trans ?_
  unfold cov
  refine Finset.sum_congr rfl fun k _ => ?_
  show k0_pay7 (F := Ideal) x0 x1 (ix2 j k) * k0_pay8 (F := Ideal) x0 x1 (ix2 j k) = _
  rw [pay7_apply, pay8_apply]

/-- The column of sums of squared deviations of the first block at row j. -/
theorem pay10_apply (x0 x1 : Vec Ideal S1x64x8192 .f32) (j : Fin 64) :
    k0_pay10 (F := Ideal) x0 x1 (ix2 j (0 : Fin 1)) = varP (brow x0 j) (brow x1 j) := by
  unfold k0_pay10
  refine (Cert.LibKeepdims.shapeCast_a_a1_apply _ _ j (0 : Fin 1)).trans ?_
  refine (laneSum_apply _ _ _ _ j).trans ?_
  unfold varP
  refine Finset.sum_congr rfl fun k _ => ?_
  show k0_pay7 (F := Ideal) x0 x1 (ix2 j k) * k0_pay7 (F := Ideal) x0 x1 (ix2 j k) = _
  rw [pay7_apply]

/-- The vector of sums of squared deviations of the second block at row j. -/
theorem pay11_apply (x0 x1 : Vec Ideal S1x64x8192 .f32) (j : Fin 64) :
    k0_pay11 (F := Ideal) x0 x1 (ix1 j) = varQ (brow x0 j) (brow x1 j) := by
  unfold k0_pay11
  refine (laneSum_apply _ _ _ _ j).trans ?_
  unfold varQ
  refine Finset.sum_congr rfl fun k _ => ?_
  show k0_pay8 (F := Ideal) x0 x1 (ix2 j k) * k0_pay8 (F := Ideal) x0 x1 (ix2 j k) = _
  rw [pay8_apply]

/-- The stored block at row j: the loaded output element plus the row's correlation, written with a reciprocal
    square root. -/
theorem pay_step (x0 x1 : Vec Ideal S1x64x8192 .f32) (xo : Vec Ideal S1x64x1 .f32) (j : Fin 64) :
    k0_pay1 (F := Ideal) (k0_pay9 x0 x1) (k0_pay10 x0 x1) (k0_pay11 x0 x1) xo (ix3 (0 : Fin 1) j (0 : Fin 1))
      = xo (ix3 (0 : Fin 1) j (0 : Fin 1)) + ccK (brow x0 j) (brow x1 j) := by
  unfold k0_pay1
  show shapeCast S1x64x1 xo _ (ix3 (0 : Fin 1) j (0 : Fin 1)) + shapeCast S1x64x1 _ _ (ix3 (0 : Fin 1) j (0 : Fin 1)) = _
  rw [shapeCast_self]
  refine congrArg (xo (ix3 (0 : Fin 1) j (0 : Fin 1)) + ·) ?_
  refine (shapeCast_ab_1ab_apply _ _ (0 : Fin 1) j (0 : Fin 1)).trans ?_
  show k0_pay9 (F := Ideal) x0 x1 (ix2 j (0 : Fin 1))
      * Ideal.rsqrt (k0_pay10 (F := Ideal) x0 x1 (ix2 j (0 : Fin 1)) * shapeCast S64x1 (k0_pay11 (F := Ideal) x0 x1) _ (ix2 j (0 : Fin 1))) = _
  rw [pay9_apply, pay10_apply, Cert.LibKeepdims.shapeCast_a_a1_apply, pay11_apply]
  rfl

/-- The zero block is zero at every row. -/
theorem pay_zero (j : Fin 64) : k0_pay2 (F := Ideal) (ix3 (0 : Fin 1) j (0 : Fin 1)) = 0 := by
  unfold k0_pay2
  show Ideal.ofBits .f32 0x00000000#32 = 0
  exact Ideal.ofBits_zero_f32

end Cert.KernelRows

end
-- ==== Proof.KernelOuts.lean ====
/-
  What one run of the kernel body leaves in the output block, as a value.

  The body loads the two input blocks, computes each row's masked correlation, and stores the output block plus
  that column. At a grid point that begins a batch sweep it first stores the zero block and reads it back, so the
  stored block is the zero block plus the column; at every other point the block is what the point before left
  plus the column. Both are the one function `step` of the two input blocks and of the block the sum starts from.
-/
import proofs.«161709_j44349832298987_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelOuts

open Cert.KernelIdeal Cert.KernelIdeal.Gen

variable {F : FTy → Type} [FloatOps F]

theorem hz : (![0, 0, 0] : Fin 3 → Nat) = fun _ => 0 := funext fun a => by fin_cases a <;> rfl

/-- One grid step: the block `xo` the sum starts from, plus the column of row correlations of the two input blocks. -/
def step (x0 x1 : Vec F S1x64x8192 .f32) (xo : Vec F S1x64x1 .f32) : Vec F S1x64x1 .f32 :=
  k0_pay1 (k0_pay9 x0 x1) (k0_pay10 x0 x1) (k0_pay11 x0 x1) xo

/-- A point inside a batch sweep: the output block holding `xo` ends at `step x0 x1 xo` (one covering store, whose
    loads read the three whole buffers). -/
theorem out_B (c : Dev nD) (i : grid0.Coords) (a3 : Memref sig .tc .vmem S1x64x8192 .f32) (h3 : a3.IsWhole)
    (a4 : Memref sig .tc .vmem S1x64x8192 .f32) (h4 : a4.IsWhole) (a5 : Memref sig .tc .vmem S1x64x1 .f32) (h5 : a5.IsWhole)
    (hc : ¬cond0_0 i) (x0 x1 : Vec F S1x64x8192 .f32) (xo : Vec F S1x64x1 .f32) :
    out0_B_2 c i a3 h3 a4 h4 a5 h5 hc x0 x1 xo = step x0 x1 xo := by
  unfold out0_B_2
  rw [View.read_writes_eq_canon _ _ _ (cover0_B_2 c i a3 h3 a4 h4 a5 h5 hc x0 x1 xo)]
  unfold kernelRun0_B
  dsimp only
  sl_unfold_words
  rw [View.canon_unit_zero hz]
  unfold step
  simp only [View.readAt_eq_ld, h3.read_unread, h4.read_unread, h5.read_unread, View.ld_unit_zero (S := S1x64x8192) hz,
    View.ld_unit_zero (S := S1x64x1) hz]

/-- A point that begins a batch sweep: the zero block is stored and read back, so the block ends at
    `step x0 x1` of the zero block. -/
theorem out_A (c : Dev nD) (i : grid0.Coords) (a3 : Memref sig .tc .vmem S1x64x8192 .f32) (h3 : a3.IsWhole)
    (a4 : Memref sig .tc .vmem S1x64x8192 .f32) (h4 : a4.IsWhole) (a5 : Memref sig .tc .vmem S1x64x1 .f32) (h5 : a5.IsWhole)
    (hc : cond0_0 i) (x0 x1 : Vec F S1x64x8192 .f32) :
    out0_A_2 c i a3 h3 a4 h4 a5 h5 hc x0 x1 = step x0 x1 (k0_pay2 (F := F)) := by
  unfold out0_A_2
  rw [View.read_writes_eq_canon _ _ _ (cover0_A_2 c i a3 h3 a4 h4 a5 h5 hc x0 x1)]
  unfold kernelRun0_A
  dsimp only
  sl_unfold_words
  rw [View.canon_cons_unit_zero (S := S1x64x1) hz, View.readCov_unit_zero (S := S1x64x1) _ hz]
  unfold step
  simp only [View.readAt_eq_ld, h3.read_unread, h4.read_unread, View.ld_unit_zero (S := S1x64x8192) hz,
    View.ld_unit_zero (S := S1x64x1) hz]

end Cert.KernelOuts

end
-- ==== Proof.KernelValue.lean ====
/-
  The value of the kernel program at the extended reals: its result `[128]` holds, at row `l`, the sum over the 32
  batches `b` of the masked correlation (reciprocal-square-root form) of row `(b, l)` of the two arguments.
-/
import proofs.«161709_j44349832298987_1_alg».proof.Proof.Gen.KernelIdeal.Frame
import proofs.«161709_j44349832298987_1_alg».proof.Proof.RowStat
import proofs.«161709_j44349832298987_1_alg».proof.Proof.KernelRows
import proofs.«161709_j44349832298987_1_alg».proof.Proof.KernelOuts
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open scoped BigOperators

/-! ## The kernel's result array: per row, the sum over the batches of the row correlations

The grid has 64 points, point `t` being (core half `p = t / 32`, row tile `lt = (t / 16) % 2`, batch step `r = t % 16`).
At point `t` the two input blocks are batch `16 p + r`, rows `64 lt … 64 lt + 63` of the two arguments, and the
output block (rows `64 lt …` of half `p`) is reset at `r = 0` and then gains, row by row, that batch's correlation.
So after step `r` row `j` of the block holds the sum over batches `16 p … 16 p + r` of the correlations of row
`64 lt + j`; the block is written back at `r = 15`; and the host then adds the two halves. -/

namespace Cert.KernelValue

open Cert.KernelIdeal Cert.KernelIdeal.Gen Cert.RowStat Cert.KernelRows Cert.KernelOuts
open Idealize.ShloMosaic.ValueIdx

variable (m : (ℓ : Loc nD τ sig) → Buf (Elt Ideal) ℓ) (ρ : Dev nD → PrngReg)

/-- Row `(b, l)` of an argument array with the two coordinates given as natural numbers (reduced into range). -/
def rowN (X : (⟨3, ![32, 128, 8192]⟩ : Shape).Idx → EReal) (b l : ℕ) : Fin 8192 → EReal :=
  row X ⟨b % 32, Nat.mod_lt _ (by decide)⟩ ⟨l % 128, Nat.mod_lt _ (by decide)⟩

/-- The correlation (reciprocal-square-root form) of row `(b, l)` of the two arrays. -/
def ccN (X Y : (⟨3, ![32, 128, 8192]⟩ : Shape).Idx → EReal) (b l : ℕ) : EReal := ccK (rowN X b l) (rowN Y b l)

/-- The two argument arrays as the region finds them, and the two input blocks at a point, at their literal types. -/
abbrev xarr (c : Dev nD) : (⟨3, ![32, 128, 8192]⟩ : Shape).Idx → EReal := V m c main_arg0
abbrev yarr (c : Dev nD) : (⟨3, ![32, 128, 8192]⟩ : Shape).Idx → EReal := V m c main_arg1
abbrev blk0 (c : Dev nD) (t : Fin cfg0.N) : Vec Ideal S1x64x8192 .f32 := iblk m c 0 t
abbrev blk1 (c : Dev nD) (t : Fin cfg0.N) : Vec Ideal S1x64x8192 .f32 := iblk m c 1 t

/-- The printed index maps in closed form, decided over the 64 grid points. -/
theorem idx_facts : ∀ t : Fin cfg0.N,
    win0_0.index t (0 : Fin 3) = 16 * (t.val / 32) + t.val % 16 ∧ win0_0.index t (1 : Fin 3) = (t.val / 16) % 2 ∧ win0_0.index t (2 : Fin 3) = 0
    ∧ win0_1.index t (0 : Fin 3) = 16 * (t.val / 32) + t.val % 16 ∧ win0_1.index t (1 : Fin 3) = (t.val / 16) % 2 ∧ win0_1.index t (2 : Fin 3) = 0
    ∧ win0_2.index t (0 : Fin 3) = t.val / 32 ∧ win0_2.index t (1 : Fin 3) = (t.val / 16) % 2 ∧ win0_2.index t (2 : Fin 3) = 0 :=
  (by decide +kernel : ∀ t : Fin grid0.N, _)

/-- Row `j` of the first input block at point `t` is row `(16 p + r, 64 lt + j)` of the first argument. -/
theorem brow_blk0 (c : Dev nD) (t : Fin cfg0.N) (j : Fin 64) :
    brow (blk0 m c t) j = rowN (xarr m c) (16 * (t.val / 32) + t.val % 16) (64 * ((t.val / 16) % 2) + j.val) := by
  have hN : t.val < 64 := lt_of_lt_of_eq t.isLt (show cfg0.N = 64 from N_0)
  obtain ⟨e0, e1, e2, -⟩ := idx_facts t
  funext k
  unfold brow rowN row
  show iblk m c 0 t (ix3 (0 : Fin 1) j k) = _
  unfold iblk
  rw [View.read_apply]
  show V m c main_arg0 _ = V m c main_arg0 _
  congr 1
  funext a
  apply Fin.ext
  have hj : j.val < 64 := j.isLt
  match a with
  | ⟨0, _⟩ => show win0_0.index t (0 : Fin 3) * 1 + 1 * 0 = (16 * (t.val / 32) + t.val % 16) % 32; rw [e0]; omega
  | ⟨1, _⟩ => show win0_0.index t (1 : Fin 3) * 64 + 1 * j.val = (64 * ((t.val / 16) % 2) + j.val) % 128; rw [e1]; omega
  | ⟨2, _⟩ => show win0_0.index t (2 : Fin 3) * 8192 + 1 * k.val = k.val; rw [e2]; omega

/-- The same for the second input block and the second argument. -/
theorem brow_blk1 (c : Dev nD) (t : Fin cfg0.N) (j : Fin 64) :
    brow (blk1 m c t) j = rowN (yarr m c) (16 * (t.val / 32) + t.val % 16) (64 * ((t.val / 16) % 2) + j.val) := by
  have hN : t.val < 64 := lt_of_lt_of_eq t.isLt (show cfg0.N = 64 from N_0)
  obtain ⟨-, -, -, e0, e1, e2, -⟩ := idx_facts t
  funext k
  unfold brow rowN row
  show iblk m c 1 t (ix3 (0 : Fin 1) j k) = _
  unfold iblk
  rw [View.read_apply]
  show V m c main_arg1 _ = V m c main_arg1 _
  congr 1
  funext a
  apply Fin.ext
  have hj : j.val < 64 := j.isLt
  match a with
  | ⟨0, _⟩ => show win0_1.index t (0 : Fin 3) * 1 + 1 * 0 = (16 * (t.val / 32) + t.val % 16) % 32; rw [e0]; omega
  | ⟨1, _⟩ => show win0_1.index t (1 : Fin 3) * 64 + 1 * j.val = (64 * ((t.val / 16) % 2) + j.val) % 128; rw [e1]; omega
  | ⟨2, _⟩ => show win0_1.index t (2 : Fin 3) * 8192 + 1 * k.val = k.val; rw [e2]; omega

/-- One grid step at point `t`: row `j` of the stored block is what the block held plus the correlation of row
    `(16 p + r, 64 lt + j)`. -/
theorem step_at (c : Dev nD) (t : Fin cfg0.N) (xo : Vec Ideal S1x64x1 .f32) (j : Fin 64) :
    step (blk0 m c t) (blk1 m c t) xo (ix3 (0 : Fin 1) j (0 : Fin 1))
      = xo (ix3 (0 : Fin 1) j (0 : Fin 1)) + ccN (xarr m c) (yarr m c) (16 * (t.val / 32) + t.val % 16) (64 * ((t.val / 16) % 2) + j.val) := by
  unfold step ccN
  rw [pay_step, brow_blk0, brow_blk1]

/-- THE ACCUMULATION in closed form: after the body at position `n`, row `j` of the output block holds the sum over the
    batch steps `0 … n % 16` of the correlations of row `64 lt + j` in batches `16 p + r`. By induction on the position. -/
theorem acc_eq (c : Dev nD) : ∀ (n : ℕ) (h : n < cfg0.N) (j : Fin 64),
    outsAt0 m c n h (ix3 (0 : Fin 1) j (0 : Fin 1))
      = ∑ r ∈ Finset.range (n % 16 + 1), ccN (xarr m c) (yarr m c) (16 * (n / 32) + r) (64 * ((n / 16) % 2) + j.val)
  | 0, h, j => by
    rw [outsAt0_A m c ⟨0, h⟩ rfl, out_A]
    refine (step_at m c ⟨0, h⟩ _ j).trans ?_
    rw [pay_zero, zero_add]
    simp
  | n + 1, h, j => by
    by_cases h0 : (n + 1) % 16 = 0
    · rw [outsAt0_A m c ⟨n + 1, h⟩ h0, out_A]
      refine (step_at m c ⟨n + 1, h⟩ _ j).trans ?_
      rw [pay_zero, zero_add]
      show ccN _ _ (16 * ((n + 1) / 32) + (n + 1) % 16) _ = _
      rw [h0]
      simp
    · rw [outsAt0_B m c ⟨n + 1, h⟩ h0, out_B]
      refine (step_at m c ⟨n + 1, h⟩ _ j).trans ?_
      show outsAt0 m c n _ (ix3 (0 : Fin 1) j (0 : Fin 1)) + ccN _ _ (16 * ((n + 1) / 32) + (n + 1) % 16) (64 * (((n + 1) / 16) % 2) + j.val) = _
      rw [acc_eq c n (Nat.lt_of_succ_lt h) j]
      have e1 : (n + 1) % 16 = n % 16 + 1 := by omega
      have e2 : (n + 1) / 32 = n / 32 := by omega
      have e3 : ((n + 1) / 16) % 2 = (n / 16) % 2 := by omega
      rw [e1, e2, e3, Finset.sum_range_succ _ (n % 16 + 1)]

/-- The same at any index of the output block. -/
theorem acc_at (c : Dev nD) (n : ℕ) (h : n < cfg0.N) (y : S1x64x1.Idx) :
    outsAt0 m c n h y
      = ∑ r ∈ Finset.range (n % 16 + 1), ccN (xarr m c) (yarr m c) (16 * (n / 32) + r) (64 * ((n / 16) % 2) + (y 1).val) := by
  obtain ⟨u, j, v, rfl⟩ : ∃ (u : Fin 1) (j : Fin 64) (v : Fin 1), y = ix3 u j v := ⟨y 0, y 1, y 2, eq_ix3 y⟩
  obtain rfl : u = 0 := Subsingleton.elim _ _
  obtain rfl : v = 0 := Subsingleton.elim _ _
  exact acc_eq m c n h j

/-- What the region's result array `[2, 128, 1]` ends holding: at `(p, l, 0)` the sum over the 16 batches of half `p` of
    the correlations of row `l`. -/
def Gout (c : Dev nD) : (⟨3, ![2, 128, 1]⟩ : Shape).Idx → EReal := fun i =>
  ∑ r ∈ Finset.range 16, ccN (xarr m c) (yarr m c) (16 * (i 0).val + r) (i 1).val

/-- WHAT A FLUSHING POINT WRITES BACK (the points with `r = 15`) is its block of `Gout`. -/
theorem flushed_eq (c : Dev nD) (t : Fin cfg0.N) (hf : (cfg0.win 2).flush t = true) :
    (dats m 0 c).flushed 2 t = ((cfg0.win 2).blk t).view.read (Elt Ideal) (Gout m c) := by
  have hN : t.val < 64 := lt_of_lt_of_eq t.isLt (show cfg0.N = 64 from N_0)
  have h15 : t.val % 16 = 15 := (flush0_2 t).mp hf
  obtain ⟨-, -, -, -, -, -, e0, e1, e2⟩ := idx_facts t
  show (cfg0.win 2).cut (grid0.coords t) ((dats m 0 c).after 2 t) = _
  rw [after0_2]
  funext y
  show outsAt0 m c t.val t.isLt y = Gout m c (((cfg0.win 2).blk t).view.emb y)
  rw [acc_at m c t.val t.isLt y, h15]
  unfold Gout
  refine Finset.sum_congr rfl fun r _ => ?_
  have c0 : ((((cfg0.win 2).blk t).view.emb y) 0).val = win0_2.index t (0 : Fin 3) * 1 + 1 * (y 0).val := rfl
  have c1 : ((((cfg0.win 2).blk t).view.emb y) 1).val = win0_2.index t (1 : Fin 3) * 64 + 1 * (y 1).val := rfl
  have hy0 : (y 0).val < 1 := (y 0).isLt
  rw [c0, c1, e0, e1]
  congr 1 <;> omega

/-- An index of the result array is in point `t`'s block iff each coordinate is in the block's range on its axis. -/
theorem mem_blk (t : Fin cfg0.N) (i : S2x128x1.Idx) :
    i ∈ ((cfg0.win 2).blk t).view.set ↔ ∀ a : Fin 3, win0_2.index t a * S1x64x1.size a ≤ (i a).val ∧ (i a).val < win0_2.index t a * S1x64x1.size a + S1x64x1.size a := by
  show i ∈ ((View.whole main_v0).slice (win0_2.rect t)).set ↔ _
  rw [View.set_slice_whole, Rect.mem_set_unit]
  exact Iff.rfl

/-- Every index `(p, l, 0)` of the result array is in the block of the flushing point `(p, l / 64, 15)`. -/
theorem cover (i : S2x128x1.Idx) : ∃ t : Fin cfg0.N, (cfg0.win 2).flush t = true ∧ i ∈ ((cfg0.win 2).blk t).view.set := by
  have h0 : (i 0).val < 2 := (i 0).isLt
  have h1 : (i 1).val < 128 := (i 1).isLt
  have h2 : (i 2).val < 1 := (i 2).isLt
  have hN : cfg0.N = 64 := N_0
  have htv : 32 * (i 0).val + 16 * ((i 1).val / 64) + 15 < cfg0.N := by rw [hN]; omega
  refine ⟨⟨32 * (i 0).val + 16 * ((i 1).val / 64) + 15, htv⟩, (flush0_2 _).mpr (by show (32 * (i 0).val + 16 * ((i 1).val / 64) + 15) % 16 = 15; omega), ?_⟩
  rw [mem_blk]
  obtain ⟨-, -, -, -, -, -, e0, e1, e2⟩ := idx_facts ⟨32 * (i 0).val + 16 * ((i 1).val / 64) + 15, htv⟩
  intro a
  match a with
  | ⟨0, _⟩ =>
    show win0_2.index _ (0 : Fin 3) * 1 ≤ (i 0).val ∧ (i 0).val < win0_2.index _ (0 : Fin 3) * 1 + 1
    rw [e0]; show (32 * (i 0).val + 16 * ((i 1).val / 64) + 15) / 32 * 1 ≤ (i 0).val ∧ (i 0).val < (32 * (i 0).val + 16 * ((i 1).val / 64) + 15) / 32 * 1 + 1; omega
  | ⟨1, _⟩ =>
    show win0_2.index _ (1 : Fin 3) * 64 ≤ (i 1).val ∧ (i 1).val < win0_2.index _ (1 : Fin 3) * 64 + 64
    rw [e1]; show (32 * (i 0).val + 16 * ((i 1).val / 64) + 15) / 16 % 2 * 64 ≤ (i 1).val ∧ (i 1).val < (32 * (i 0).val + 16 * ((i 1).val / 64) + 15) / 16 % 2 * 64 + 64; omega
  | ⟨2, _⟩ =>
    show win0_2.index _ (2 : Fin 3) * 1 ≤ (i 2).val ∧ (i 2).val < win0_2.index _ (2 : Fin 3) * 1 + 1
    rw [e2]; omega

/-- So the region's result array ends holding `Gout`. -/
theorem final (c : Dev nD) : (dats m 0 c).arrAt 2 cfg0.N = Gout m c :=
  (dats m 0 c).arrAt_eq_of_cover 2 (Gout m c) (flushed_eq m c) (cover)

/-- The region's result array as the host lines after the region find it. -/
theorem tail_arr (c : Dev nD) :
    Pipeline.withArrays (cfgs 0).spec c (V0 m c) (fun w => (dats m 0 c).arrAt w (cfgs 0).N) (Proc.devRef .tc main_v0) = Gout m c :=
  (Pipeline.withArrays_arr spec0 launch0.win.arr_inj c _ _ 2).trans (final m c)

/-- Reduced into range, a coordinate that is in range is itself. -/
theorem rowN_fin (X : (⟨3, ![32, 128, 8192]⟩ : Shape).Idx → EReal) (b : Fin 32) (l : Fin 128) :
    rowN X b.val l.val = row X b l := by
  unfold rowN
  congr 1
  · exact Fin.ext (Nat.mod_eq_of_lt b.isLt)
  · exact Fin.ext (Nat.mod_eq_of_lt l.isLt)

/-- The program's result: at row `l` the sum over all 32 batches of the row's correlation. -/
def kres (c : Dev nD) : (⟨1, ![128]⟩ : Shape).Idx → EReal := fun i =>
  ∑ b : Fin 32, ccK (row (xarr m c) b ⟨(i 0).val, (i 0).isLt⟩) (row (yarr m c) b ⟨(i 0).val, (i 0).isLt⟩)

/-- The two halves' sums of 16 batches each are the sum over the 32 batches. -/
theorem halves (f : ℕ → EReal) :
    (∑ r ∈ Finset.range 16, f (16 * 0 + r)) + ∑ r ∈ Finset.range 16, f (16 * 1 + r) = ∑ b : Fin 32, f b.val := by
  rw [← Finset.sum_range (fun b => f b), show 32 = 16 + 16 from rfl, Finset.sum_range_add]
  simp only [Nat.mul_zero, Nat.zero_add, Nat.mul_one]

/-- THE HOST LINES AFTER THE REGION drop the unit axis and add the two halves: the result is `kres`. -/
theorem tail_eq (c : Dev nD) : Pipeline.afterTail₀ cfgs (dats m) 0 (V0 m) [hostOps1] c main_v2 = kres m c := by
  unfold Pipeline.afterTail₀
  show StableHlo.after hostOps1 _ (Proc.devRef .tc main_v2) = _
  after_results
  show Host.reduceAdd (F := Ideal) (shapeCast S2x128 (Pipeline.withArrays (cfgs 0).spec c (V0 m c) (fun w => (dats m 0 c).arrAt w (cfgs 0).N) (Proc.devRef .tc main_v0)) shapeCasts_S2x128x1_S2x128)
    (constant S_ .f32 0x00000000#32) reducesTo_S2x128_S128_d0 h_S_ = _
  rw [tail_arr m c]
  funext i
  obtain ⟨l, rfl⟩ : ∃ l : Fin 128, i = ix1 l := ⟨i 0, eq_ix1 i⟩
  simp only [Host.reduceAdd, Ideal.hostReduceAdd_def]
  rw [Ideal.hostReduceAdd_single reducesTo_S2x128_S128_d0 (by decide)]
  show Ideal.ofBits .f32 0x00000000#32 + _ = _
  rw [Ideal.ofBits_zero_f32, zero_add]
  have hp : ∀ p : Fin 2, shapeCast S2x128 (Gout m c) shapeCasts_S2x128x1_S2x128
        ((by decide : S2x128.Reduces [0] S128).lift (ix1 l) p) = Gout m c (ix3 p l (0 : Fin 1)) := fun p =>
    shapeCast_apply (Gout m c) shapeCasts_S2x128x1_S2x128 _ (ix3 p l (0 : Fin 1)) (by
      rw [Shape.rowMajor_val_three, Shape.rowMajor_val_two]
      show (p.val * 128 + l.val) * 1 + 0 = p.val * 128 + l.val
      omega)
  have hsum : ∑ p : Fin 2, shapeCast S2x128 (Gout m c) shapeCasts_S2x128x1_S2x128
        ((by decide : S2x128.Reduces [0] S128).lift (ix1 l) p)
      = Gout m c (ix3 (0 : Fin 2) l (0 : Fin 1)) + Gout m c (ix3 (1 : Fin 2) l (0 : Fin 1)) := by
    rw [Fin.sum_univ_two, hp 0, hp 1]
  refine hsum.trans ?_
  unfold Gout kres
  show (∑ r ∈ Finset.range 16, ccN (xarr m c) (yarr m c) (16 * 0 + r) l.val) + ∑ r ∈ Finset.range 16, ccN (xarr m c) (yarr m c) (16 * 1 + r) l.val
    = ∑ b : Fin 32, ccK (row (xarr m c) b l) (row (yarr m c) b l)
  rw [halves (fun b => ccN (xarr m c) (yarr m c) b l.val)]
  refine Finset.sum_congr rfl fun b _ => ?_
  unfold ccN
  rw [rowN_fin, rowN_fin]

/-- The result buffer is none of the region's arrays, so the run's post reads it through the host lines. -/
theorem mem_rest : main_v2 ∈ Pipeline.restRefs sig (cfgs 0).spec :=
  Pipeline.mem_restRefs_of main_v2 rfl (fun w => by fin_cases w <;> decide)

/-- THE KERNEL PROGRAM'S RUN, READ: it terminates with the result at `kres` of the argument arrays, and the
    arguments unchanged. -/
theorem run : θ_run defs (onTc (τ := τ) (main (F := Ideal))) ⟨m, fun _ => 0, ρ⟩ fun r => ∀ c : Dev nD,
      r.2.mem ((c : Thread nD τ).loc main_v2) = kres m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v2 mem_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelValue

end
-- ==== Proof.lean ====
/-
  The masked row correlation, summed over the batches: the kernel against its jnp reference.

  For each of the 32 x 128 rows of the two inputs both programs keep the elements where either input exceeds 0.001 in
  magnitude, centre both inputs by their masked means, and form cov, var_p and var_l of the masked deviations. The
  kernel's correlation is cov * rsqrt (var_p * var_l), accumulated over 16 batches per half and the two halves added
  on the host; the reference's is cov / sqrt (var_p * var_l), summed over the 32 batches. On the extended reals a sum
  may be regrouped freely, and the two forms of one row's correlation agree when the radicand var_p * var_l is
  positive — which the precondition states of every row (where it is zero the reference divides 0 by 0). So the two
  results are the same sum of the same terms.

  The three frames are the programs' runs with the results dropped; the idealization rewrote nothing.
-/
import proofs.«161709_j44349832298987_1_alg».proof.Defs
import proofs.«161709_j44349832298987_1_alg».proof.Proof.Gen.Kernel
import proofs.«161709_j44349832298987_1_alg».proof.Proof.Gen.Kernel.Skeleton
import proofs.«161709_j44349832298987_1_alg».proof.Proof.Gen.Kernel.Launch
import proofs.«161709_j44349832298987_1_alg».proof.Proof.Gen.Kernel.Points
import proofs.«161709_j44349832298987_1_alg».proof.Proof.Gen.Kernel.Frame
import proofs.«161709_j44349832298987_1_alg».proof.Proof.Gen.KernelIdeal
import proofs.«161709_j44349832298987_1_alg».proof.Proof.Gen.KernelIdeal.Skeleton
import proofs.«161709_j44349832298987_1_alg».proof.Proof.Gen.KernelIdeal.Launch
import proofs.«161709_j44349832298987_1_alg».proof.Proof.Gen.KernelIdeal.Points
import proofs.«161709_j44349832298987_1_alg».proof.Proof.Gen.KernelIdeal.Frame
import proofs.«161709_j44349832298987_1_alg».proof.Proof.Gen.ReferenceIdeal
import proofs.«161709_j44349832298987_1_alg».proof.Proof.Gen.Pre_finite_inputs
import proofs.«161709_j44349832298987_1_alg».proof.Proof.Gen.ReferenceIdeal.Run
import proofs.«161709_j44349832298987_1_alg».proof.Proof.Gen.ReferenceIdeal.Read
import proofs.«161709_j44349832298987_1_alg».proof.Proof.RowStat
import proofs.«161709_j44349832298987_1_alg».proof.Proof.RefRows
import proofs.«161709_j44349832298987_1_alg».proof.Proof.PreRows
import proofs.«161709_j44349832298987_1_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx Cert.RowStat

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel program ends with, at row `l`, the sum over the batches of `cov * rsqrt (var_p * var_l)` of row `(b, l)`;
    the reference with the same sum of `cov / sqrt (var_p * var_l)`. The precondition makes every radicand positive,
    where the two forms agree. -/
theorem algebraic : Cert.algebraic_KernelIdeal_ReferenceIdeal := by
  intro m ρ m' ρ' hpre hagree
  refine ⟨fun c => Cert.KernelValue.kres m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2]
  funext i
  obtain ⟨l, rfl⟩ : ∃ l : Fin 128, i = ix1 l := ⟨i 0, eq_ix1 i⟩
  rw [Cert.RefRows.ref_out]
  show _ = ∑ b : Fin 32, ccK (row (m ((c.tc : Thread Cert.KernelIdeal.nD Cert.KernelIdeal.τ).loc Cert.KernelIdeal.main_arg0)) b l)
    (row (m ((c.tc : Thread Cert.KernelIdeal.nD Cert.KernelIdeal.τ).loc Cert.KernelIdeal.main_arg1)) b l)
  refine Finset.sum_congr rfl fun b _ => (ccK_eq_ccR _ _ ?_).symm
  rw [← Cert.RefRows.ref_rad]
  exact Cert.PreRows.rad_pos_of_pre _ _ (hpre c) b l

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
